-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x32 : Shape := ⟨3, ![16, 2048, 32]⟩
abbrev S32x128 : Shape := ⟨2, ![32, 128]⟩
abbrev S_ : Shape := ⟨0, ![]⟩

class Facts : Prop where
  bcast_S_S16x2048x32 : S_.BroadcastsInDim S16x2048x32 (![] : Fin 0 → Fin S16x2048x32.rank)
  reducesTo_S16x2048x32_S_d0_1_2 : S16x2048x32.ReducesTo [0, 1, 2] S_
  h_S_ : 0 < S_.numel
  bcast_S_S32x128 : S_.BroadcastsInDim S32x128 (![] : Fin 0 → Fin S32x128.rank)
  reducesTo_S32x128_S_d0_1 : S32x128.ReducesTo [0, 1] S_

variable [Facts]

def fn_part1 {F : FTy → Type} [FloatOps F] (main_arg4 : FVec F S32x128 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S32x128 .f32 := Host.absf main_arg4
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  main_v23

def fn {F : FTy → Type} [FloatOps F] (main_arg0 : FVec F S16x2048x32 .f32) (main_arg1 : FVec F S32x128 .f32) (main_arg2 : FVec F S32x128 .f32) (main_arg3 : FVec F S32x128 .f32) (main_arg4 : FVec F S32x128 .f32) : IVec S_ 1 :=
  let main_v0 : FVec F S16x2048x32 .f32 := Host.absf main_arg0
  let main_cst : FVec F S_ .f32 := constant S_ .f32 0x7F800000#32
  let main_v1 : FVec F S16x2048x32 .f32 := broadcastInDim S16x2048x32 ![] bcast_S_S16x2048x32 main_cst
  let main_v2 : IVec S16x2048x32 1 := cmpf .olt main_v0 main_v1
  let main_c : IVec S_ 1 := constantI S_ 1 1#1
  let main_v3 : IVec S_ 1 := (fun x v => Host.reduce IntOp.andi x v reducesTo_S16x2048x32_S_d0_1_2 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32x128 .f32 := Host.absf main_arg2
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S32x128 .f32 := Host.absf main_arg3
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg4 main_v13 main_v16
-- ==== Kernel.lean ====
abbrev S16x2048x32 : Shape := ⟨3, ![16, 2048, 32]⟩
abbrev S32x128 : Shape := ⟨2, ![32, 128]⟩
abbrev S16x2048x32x128 : Shape := ⟨4, ![16, 2048, 32, 128]⟩
abbrev S1x256x32 : Shape := ⟨3, ![1, 256, 32]⟩
abbrev S1x256x32x128 : Shape := ⟨4, ![1, 256, 32, 128]⟩
abbrev S256x32 : Shape := ⟨2, ![256, 32]⟩
abbrev S256x32x1 : Shape := ⟨3, ![256, 32, 1]⟩
abbrev S1x32x128 : Shape := ⟨3, ![1, 32, 128]⟩
abbrev S256x32x128 : Shape := ⟨3, ![256, 32, 128]⟩

abbrev nBuf : Space → Nat
  | .hbm => 6
  | .vmem => 8
  | .smem => 0
  | _ => 0

abbrev bufTy : (tb : Table) → Fin (tcTables nBuf tb) → BufTy
  | .hbm, ⟨0, _⟩ => ⟨S16x2048x32, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S32x128, .f32⟩
  | .hbm, ⟨5, _⟩ => ⟨S16x2048x32x128, .f32⟩
  | .local _ .vmem, ⟨0, _⟩ => ⟨S1x256x32, .f32⟩
  | .local _ .vmem, ⟨1, _⟩ => ⟨S1x256x32, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S1x256x32x128, .f32⟩
  | .local _ .vmem, ⟨7, _⟩ => ⟨S1x256x32x128, .f32⟩
  | _, _ => ⟨S16x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x256x32_S1x256x32_0_0_0 : ∀ a, (![0, 0, 0] : Fin 3 → Nat) a + S1x256x32.size a ≤ S1x256x32.size a
  h_S1x256x32 : 0 < S1x256x32.numel
  shapeCasts_S1x256x32_S256x32 : S1x256x32.ShapeCasts S256x32
  inb_S32x128_S32x128_0_0 : ∀ a, (![0, 0] : Fin 2 → Nat) a + S32x128.size a ≤ S32x128.size a
  h_S32x128 : 0 < S32x128.numel
  shapeCasts_S256x32_S256x32x1 : S256x32.ShapeCasts S256x32x1
  shapeCasts_S32x128_S1x32x128 : S32x128.ShapeCasts S1x32x128
  broadcasts_S256x32x1_S256x32x128 : S256x32x1.Broadcasts S256x32x128
  broadcasts_S1x32x128_S256x32x128 : S1x32x128.Broadcasts S256x32x128
  reduces_S256x32x128_S256x32 : S256x32x128.Reduces [2] S256x32
  inb_S1x256x32x128_S1x256x32x128_0_0_0_0 : ∀ a, (![0, 0, 0, 0] : Fin 4 → Nat) a + S1x256x32x128.size a ≤ S1x256x32x128.size a
  h_S1x256x32x128 : 0 < S1x256x32x128.numel
  shapeCasts_S1x256x32x128_S256x32x128 : S1x256x32x128.ShapeCasts S256x32x128
  shapeCasts_S256x32x128_S1x256x32x128 : S256x32x128.ShapeCasts S1x256x32x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x32.size a ≤ S16x2048x32.size a
  hwx0_0 : ∀ i : grid0.Coords, EltTy.bits .f32 = 32 ∨ (Rect.block (s := S16x2048x32) S1x256x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .f32 = 32 ∨ (Rect.block (s := S32x128) S32x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x32x128.size a ≤ S16x2048x32x128.size a
  hwx0_5 : ∀ i : grid0.Coords, EltTy.bits .f32 = 32 ∨ (Rect.block (s := S16x2048x32x128) S1x256x32x128.size (cc0_transform_5 i) (hinb0_5 i)).WholeWords (EltTy.packing .f32)

variable [Facts₀]

abbrev win0_0 : Pipeline.Window sig grid0 :=
  Pipeline.Window.ofSpec (Memref.whole main_arg0) S1x256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x256x32x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x32 : Shape := ⟨3, ![16, 2048, 32]⟩
abbrev S32x128 : Shape := ⟨2, ![32, 128]⟩
abbrev S16x2048x32x1 : Shape := ⟨4, ![16, 2048, 32, 1]⟩
abbrev S1x1x32x128 : Shape := ⟨4, ![1, 1, 32, 128]⟩
abbrev S16x2048x32x128 : Shape := ⟨4, ![16, 2048, 32, 128]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S16x2048x32, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S32x128, .f32⟩
  | .hbm, ⟨5, _⟩ => ⟨S16x2048x32x1, .f32⟩
  | .hbm, ⟨6, _⟩ => ⟨S1x1x32x128, .f32⟩
  | .hbm, ⟨7, _⟩ => ⟨S16x2048x32x128, .f32⟩
  | .hbm, ⟨8, _⟩ => ⟨S16x2048x32x128, .f32⟩
  | .hbm, ⟨9, _⟩ => ⟨S16x2048x32x128, .f32⟩
  | .hbm, ⟨10, _⟩ => ⟨S1x1x32x128, .f32⟩
  | .hbm, ⟨11, _⟩ => ⟨S16x2048x32x128, .f32⟩
  | .hbm, ⟨12, _⟩ => ⟨S16x2048x32x128, .f32⟩
  | .hbm, ⟨13, _⟩ => ⟨S_, .f32⟩
  | .hbm, ⟨14, _⟩ => ⟨S16x2048x32, .f32⟩
  | .hbm, ⟨15, _⟩ => ⟨S16x2048x32x1, .f32⟩
  | .hbm, ⟨16, _⟩ => ⟨S_, .f32⟩
  | .hbm, ⟨17, _⟩ => ⟨S16x2048x32x1, .f32⟩
  | .hbm, ⟨18, _⟩ => ⟨S16x2048x32x1, .f32⟩
  | .hbm, ⟨19, _⟩ => ⟨S16x2048x32x128, .f32⟩
  | .hbm, ⟨20, _⟩ => ⟨S16x2048x32x128, .f32⟩
  | .hbm, ⟨21, _⟩ => ⟨S16x2048x32x128, .f32⟩
  | .hbm, ⟨22, _⟩ => ⟨S_, .f32⟩
  | .hbm, ⟨23, _⟩ => ⟨S16x2048x32, .f32⟩
  | .hbm, ⟨24, _⟩ => ⟨S16x2048x32x1, .f32⟩
  | .hbm, ⟨25, _⟩ => ⟨S_, .f32⟩
  | .hbm, ⟨26, _⟩ => ⟨S16x2048x32x1, .f32⟩
  | .hbm, ⟨27, _⟩ => ⟨S16x2048x32x1, .f32⟩
  | .hbm, ⟨28, _⟩ => ⟨S16x2048x32x128, .f32⟩
  | .hbm, ⟨29, _⟩ => ⟨S16x2048x32x128, .f32⟩
  | .hbm, ⟨30, _⟩ => ⟨S_, .f32⟩
  | .hbm, ⟨31, _⟩ => ⟨S16x2048x32x1, .f32⟩
  | .hbm, ⟨32, _⟩ => ⟨S16x2048x32x1, .f32⟩
  | .hbm, ⟨33, _⟩ => ⟨S16x2048x32x1, .f32⟩
  | .hbm, ⟨34, _⟩ => ⟨S16x2048x32x128, .f32⟩
  | .hbm, ⟨35, _⟩ => ⟨S16x2048x32x128, .f32⟩
  | .hbm, ⟨36, _⟩ => ⟨S1x1x32x128, .f32⟩
  | .hbm, ⟨37, _⟩ => ⟨S16x2048x32x128, .f32⟩
  | .hbm, ⟨38, _⟩ => ⟨S16x2048x32x128, .f32⟩
  | .hbm, ⟨39, _⟩ => ⟨S1x1x32x128, .f32⟩
  | .hbm, ⟨40, _⟩ => ⟨S16x2048x32x128, .f32⟩
  | .hbm, ⟨41, _⟩ => ⟨S16x2048x32x128, .f32⟩
  | .hbm, ⟨42, _⟩ => ⟨S_, .f32⟩
  | .hbm, ⟨43, _⟩ => ⟨S16x2048x32x128, .f32⟩
  | .hbm, ⟨44, _⟩ => ⟨S16x2048x32x128, .f32⟩
  | _, _ => ⟨S16x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_cst : Ref sig .tc := ⟨.hbm, 42, rfl⟩
abbrev main_call0_v0 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  bcast_S16x2048x32_S16x2048x32x1_0_1_2 : S16x2048x32.BroadcastsInDim S16x2048x32x1 (![0, 1, 2] : Fin 3 → Fin S16x2048x32x1.rank)
  bcast_S32x128_S1x1x32x128_2_3 : S32x128.BroadcastsInDim S1x1x32x128 (![2, 3] : Fin 2 → Fin S1x1x32x128.rank)
  bcast_S16x2048x32x1_S16x2048x32x128_0_1_2_3 : S16x2048x32x1.BroadcastsInDim S16x2048x32x128 (![0, 1, 2, 3] : Fin 4 → Fin S16x2048x32x128.rank)
  bcast_S1x1x32x128_S16x2048x32x128_0_1_2_3 : S1x1x32x128.BroadcastsInDim S16x2048x32x128 (![0, 1, 2, 3] : Fin 4 → Fin S16x2048x32x128.rank)
  reducesTo_S16x2048x32x128_S16x2048x32_d3 : S16x2048x32x128.ReducesTo [3] S16x2048x32
  h_S_ : 0 < S_.numel
  bcast_S_S16x2048x32x1 : S_.BroadcastsInDim S16x2048x32x1 (![] : Fin 0 → Fin S16x2048x32x1.rank)
  bcast_S_S16x2048x32x128 : S_.BroadcastsInDim S16x2048x32x128 (![] : Fin 0 → Fin S16x2048x32x128.rank)

variable [Facts₀]

class Facts : Prop extends Facts₀ where

variable [Facts]
-- ==== Proof.Spec.lean ====
/-
  The function both programs compute, over the extended reals.

  One scalar input `x[b, s, v]` is lifted to a row of 128 features by its variable's weights and
  biases, `h d = x · W[v, d] + B[v, d]`; the row is normalised by its own mean and variance
  (both means are the row's sum divided by the number the word of 128.0 denotes, the variance taken
  of the centred row and shifted by a small constant before the reciprocal square root), scaled and
  shifted feature by feature, and clamped below at zero:
    `out[b, s, v, d] = max (((h d − μ) · rsqrt (σ² + ε)) · γ[v, d] + β[v, d]) 0`.
  The three float words stay as the numbers their patterns denote: they are the same words on both
  sides and are never evaluated.
-/
import Idealize.ShloMosaic.PureOps.Ideal
import Idealize.ShloMosaic.Lib.ValueIdx

noncomputable section

open scoped BigOperators

namespace Cert.RowNorm

open Idealize.ShloMosaic Idealize.ShloMosaic.ValueIdx

/-- The number of features of a row, as the float word the programs divide by. -/
def width : EReal := Ideal.ofBits .f32 0x43000000#32
/-- The shift under the reciprocal square root. -/
def shift : EReal := Ideal.ofBits .f32 0x3727C5AC#32
/-- The floor of the final clamp. -/
def floor0 : EReal := Ideal.ofBits .f32 0x00000000#32

/-- A row's mean: its sum divided by the row's width. -/
def mean (h : Fin 128 → EReal) : EReal := Ideal.div (∑ k : Fin 128, h k) width

/-- A row's variance: the mean of the squares of the centred row. -/
def variance (h : Fin 128 → EReal) : EReal := mean fun k => (h k - mean h) * (h k - mean h)

/-- The row `h` normalised, scaled by `g`, shifted by `s`, clamped below, at feature `d`. -/
def normRelu (h g s : Fin 128 → EReal) (d : Fin 128) : EReal :=
  max ((h d - mean h) * Ideal.rsqrt (variance h + shift) * g d + s d) floor0

/-- The lifted row of one scalar: the scalar times a row of weights plus a row of biases. -/
def lift (x : EReal) (w b : Fin 128 → EReal) (k : Fin 128) : EReal := x * w k + b k

/-- The whole result array from the five argument arrays, index by index. -/
def result (x : (⟨3, ![16, 2048, 32]⟩ : Shape).Idx → EReal) (W B gam bet : (⟨2, ![32, 128]⟩ : Shape).Idx → EReal) :
    (⟨4, ![16, 2048, 32, 128]⟩ : Shape).Idx → EReal := fun i =>
  normRelu (lift (x (ix3 (i 0) (i 1) (i 2))) (fun k => W (ix2 (i 2) k)) (fun k => B (ix2 (i 2) k)))
    (fun k => gam (ix2 (i 2) k)) (fun k => bet (ix2 (i 2) k)) (i 3)

end Cert.RowNorm

end
-- ==== Proof.Reference.lean ====
/-
  The reference computes `RowNorm.result`.

  Its forty host operations are read one at a time at an index: the two broadcasts of each argument
  put `x[b, s, v]`, `W[v, d]`, `B[v, d]`, `γ[v, d]`, `β[v, d]` at the output index `(b, s, v, d)`; each of
  its two sums over the last axis is the initial word `0` plus the sum of the row, which is the row's
  sum; its quotients, its reciprocal square root and its maximum are the extended reals' own.
-/
import proofs.«128797_j9199819948534_1_alg».proof.Proof.Gen.ReferenceIdeal.Read
import proofs.«128797_j9199819948534_1_alg».proof.Proof.Spec

noncomputable section

open scoped BigOperators

namespace Cert.RowNorm.Reference

open Cert.ReferenceIdeal Cert.ReferenceIdeal.Read Idealize.ShloMosaic Idealize.ShloMosaic.ValueIdx Cert.RowNorm

variable (x0 : (⟨S16x2048x32, .f32⟩ : BufTy).Contents (Elt Ideal))
variable (x1 x2 x3 x4 : (⟨S32x128, .f32⟩ : BufTy).Contents (Elt Ideal))

/-- The lifted row the reference normalises at `(b, s, v)`. -/
abbrev row (b : Fin 16) (s : Fin 2048) (v : Fin 32) : Fin 128 → EReal :=
  lift (x0 (ix3 b s v)) (fun k => x1 (ix2 v k)) (fun k => x2 (ix2 v k))

/-- `x · W + B` at `(b, s, v, d)`. -/
theorem lifted_apply (b : Fin 16) (s : Fin 2048) (v : Fin 32) (d : Fin 128) :
    val_main_v7 (F := Ideal) x0 x1 x2 (ix4 b s v d) = row x0 x1 x2 b s v d := by
  have e0 : idx_main_v0 (idx_main_v2 (ix4 b s v d)) = ix3 b s v :=
    funext fun a => match a with | ⟨0, _⟩ => rfl | ⟨1, _⟩ => rfl | ⟨2, _⟩ => rfl
  have e1 : idx_main_v1 (idx_main_v3 (ix4 b s v d)) = ix2 v d :=
    funext fun a => match a with | ⟨0, _⟩ => rfl | ⟨1, _⟩ => rfl
  have e2 : idx_main_v5 (idx_main_v6 (ix4 b s v d)) = ix2 v d :=
    funext fun a => match a with | ⟨0, _⟩ => rfl | ⟨1, _⟩ => rfl
  rw [val_main_v7_apply, val_main_v4_apply, val_main_v2_apply, val_main_v0_apply, val_main_v3_apply, val_main_v1_apply,
    val_main_v6_apply, val_main_v5_apply, e0, e1, e2]
  rfl

/-- The first quotient is the row's mean, at the kept unit axis's one coordinate. -/
theorem mean_apply (b : Fin 16) (s : Fin 2048) (v : Fin 32) (q : Fin 1) :
    val_main_v11 (F := Ideal) x0 x1 x2 (ix4 b s v q) = mean (row x0 x1 x2 b s v) := by
  have e : ∀ k : Fin 128, idx_main_v8 (idx_main_v9 (ix4 b s v q)) k = ix4 b s v k := fun k =>
    funext fun a => match a with | ⟨0, _⟩ => rfl | ⟨1, _⟩ => rfl | ⟨2, _⟩ => rfl | ⟨3, _⟩ => rfl
  rw [val_main_v11_apply, val_main_v9_apply, val_main_v8_apply, val_main_v10_apply, val_main_cst_0_apply, val_main_cst_apply]
  simp only [e, lifted_apply]
  rw [Ideal.hostDivf_def, Ideal.ofBits_def, Ideal.ofBits_def, Ideal.ofBits_zero_f32, zero_add]
  rfl

/-- Both subtractions of the broadcast mean leave the centred row. -/
theorem centred_apply (b : Fin 16) (s : Fin 2048) (v : Fin 32) (d : Fin 128) :
    val_main_v13 (F := Ideal) x0 x1 x2 (ix4 b s v d) = row x0 x1 x2 b s v d - mean (row x0 x1 x2 b s v) := by
  have e : idx_main_v12 (ix4 b s v d) = ix4 b s v (0 : Fin 1) :=
    funext fun a => match a with | ⟨0, _⟩ => rfl | ⟨1, _⟩ => rfl | ⟨2, _⟩ => rfl | ⟨3, _⟩ => rfl
  rw [val_main_v13_apply, val_main_v12_apply, e, mean_apply, lifted_apply]
  rfl

theorem centred_apply' (b : Fin 16) (s : Fin 2048) (v : Fin 32) (d : Fin 128) :
    val_main_v20 (F := Ideal) x0 x1 x2 (ix4 b s v d) = row x0 x1 x2 b s v d - mean (row x0 x1 x2 b s v) := by
  have e : idx_main_v19 (ix4 b s v d) = ix4 b s v (0 : Fin 1) :=
    funext fun a => match a with | ⟨0, _⟩ => rfl | ⟨1, _⟩ => rfl | ⟨2, _⟩ => rfl | ⟨3, _⟩ => rfl
  rw [val_main_v20_apply, val_main_v19_apply, e, mean_apply, lifted_apply]
  rfl

/-- The second quotient is the row's variance. -/
theorem variance_apply (b : Fin 16) (s : Fin 2048) (v : Fin 32) (q : Fin 1) :
    val_main_v18 (F := Ideal) x0 x1 x2 (ix4 b s v q) = variance (row x0 x1 x2 b s v) := by
  have e : ∀ k : Fin 128, idx_main_v15 (idx_main_v16 (ix4 b s v q)) k = ix4 b s v k := fun k =>
    funext fun a => match a with | ⟨0, _⟩ => rfl | ⟨1, _⟩ => rfl | ⟨2, _⟩ => rfl | ⟨3, _⟩ => rfl
  rw [val_main_v18_apply, val_main_v16_apply, val_main_v15_apply, val_main_v17_apply, val_main_cst_2_apply, val_main_cst_1_apply]
  simp only [e, val_main_v14_apply, centred_apply]
  rw [Ideal.hostDivf_def, Ideal.ofBits_def, Ideal.ofBits_def, Ideal.ofBits_zero_f32, zero_add]
  rfl

/-- The reference's result array is `RowNorm.result` of its arguments. -/
theorem value_eq : val_main_v32 (F := Ideal) x0 x1 x2 x3 x4 = result x0 x1 x2 x3 x4 := by
  funext i
  obtain ⟨b, s, v, d, rfl⟩ : ∃ (b : Fin 16) (s : Fin 2048) (v : Fin 32) (d : Fin 128), i = ix4 b s v d :=
    ⟨i 0, i 1, i 2, i 3, eq_ix4 i⟩
  have e24 : idx_main_v24 (ix4 b s v d) = ix4 b s v (0 : Fin 1) :=
    funext fun a => match a with | ⟨0, _⟩ => rfl | ⟨1, _⟩ => rfl | ⟨2, _⟩ => rfl | ⟨3, _⟩ => rfl
  have e3 : idx_main_v26 (idx_main_v27 (ix4 b s v d)) = ix2 v d :=
    funext fun a => match a with | ⟨0, _⟩ => rfl | ⟨1, _⟩ => rfl
  have e4 : idx_main_v29 (idx_main_v30 (ix4 b s v d)) = ix2 v d :=
    funext fun a => match a with | ⟨0, _⟩ => rfl | ⟨1, _⟩ => rfl
  rw [val_main_v32_apply, val_main_v31_apply, val_main_v28_apply, val_main_v25_apply, centred_apply', val_main_v24_apply, e24,
    val_main_v23_apply, val_main_v22_apply, variance_apply, val_main_v21_apply, val_main_cst_3_apply,
    val_main_v27_apply, val_main_v26_apply, e3, val_main_v30_apply, val_main_v29_apply, e4,
    val_main_call0_v0_apply, val_main_call0_cst_apply]
  rfl

end Cert.RowNorm.Reference

end
-- ==== Proof.Block.lean ====
/-
  One block of the kernel's output, element by element.

  At a grid point the body holds a [1, 256, 32] block of scalars and the four [32, 128] tables. It
  lifts scalar `(r, v)` to the row `d ↦ x[r, v] · W[v, d] + B[v, d]`, takes the row's sum over the lane
  axis twice (of the row, and of the squares of the centred row), divides each by the width, and ends
  at `RowNorm.normRelu` of that row with the scale and shift rows `γ[v, ·]`, `β[v, ·]`. A lane sum read
  at `(r, v)` is the sum over `k` of its operand at `(r, v, k)`; a value kept on a unit axis and
  repeated along the lanes reads back at `(r, v)`.
-/
import proofs.«128797_j9199819948534_1_alg».proof.Proof.Gen.KernelIdeal.Value
import proofs.«128797_j9199819948534_1_alg».proof.Proof.Spec
import Idealize.ShloMosaic.PureOps.Ideal.Laws
import Idealize.ShloMosaic.Lib.Pipeline.Value

noncomputable section

open scoped BigOperators

namespace Cert.RowNorm.Block

open Cert.KernelIdeal Cert.KernelIdeal.Gen Idealize.ShloMosaic Idealize.ShloMosaic.ValueIdx Cert.RowNorm

/-! ## Layout operations of the body, read at literal coordinates -/

section Layout
variable {α : Type}

/-- The scalars' block with its leading unit axis dropped. -/
theorem dropUnit_apply (P : S1x256x32.Idx → α) (r : Fin 256) (v : Fin 32) :
    shapeCast S256x32 P shapeCasts_S1x256x32_S256x32 (ix2 r v) = P (ix3 (0 : Fin 1) r v) :=
  shapeCast_apply _ _ (ix2 r v) (ix3 (0 : Fin 1) r v) (by
    rw [Shape.rowMajor_val_three, Shape.rowMajor_val_two]
    show (0 * 256 + r.val) * 32 + v.val = r.val * 32 + v.val; omega)

/-- A per-`(r, v)` value put on a trailing unit axis. -/
theorem keepUnit_apply (z : S256x32.Idx → α) (r : Fin 256) (v : Fin 32) (q : Fin 1) :
    shapeCast S256x32x1 z shapeCasts_S256x32_S256x32x1 (ix3 r v q) = z (ix2 r v) :=
  shapeCast_apply _ _ (ix3 r v q) (ix2 r v) (by
    rw [Shape.rowMajor_val_two, Shape.rowMajor_val_three]
    show r.val * 32 + v.val = (r.val * 32 + v.val) * 1 + q.val; omega)

/-- A value on the trailing unit axis repeated along the 128 lanes. -/
theorem alongLanes_apply (z : S256x32x1.Idx → α) (r : Fin 256) (v : Fin 32) (d : Fin 128) :
    broadcastTo S256x32x128 z broadcasts_S256x32x1_S256x32x128 (ix3 r v d) = z (ix3 r v (0 : Fin 1)) :=
  broadcastTo_apply _ _ (ix3 r v d) (ix3 r v (0 : Fin 1)) (fun a => match a with
    | ⟨0, _⟩ => by show r.val = (if (256 : Nat) = 1 then 0 else r.val); rw [if_neg (by decide)]
    | ⟨1, _⟩ => by show v.val = (if (32 : Nat) = 1 then 0 else v.val); rw [if_neg (by decide)]
    | ⟨2, _⟩ => by show 0 = (if (1 : Nat) = 1 then 0 else d.val); rw [if_pos rfl])

/-- A [32, 128] table repeated along the 256 rows of the block. -/
theorem alongRows_apply (T : S32x128.Idx → α) (r : Fin 256) (v : Fin 32) (d : Fin 128) :
    broadcastTo S256x32x128 (shapeCast S1x32x128 T shapeCasts_S32x128_S1x32x128) broadcasts_S1x32x128_S256x32x128 (ix3 r v d)
      = T (ix2 v d) := by
  refine (broadcastTo_apply _ _ (ix3 r v d) (ix3 (0 : Fin 1) v d) (fun a => match a with
    | ⟨0, _⟩ => by show 0 = (if (1 : Nat) = 1 then 0 else r.val); rw [if_pos rfl]
    | ⟨1, _⟩ => by show v.val = (if (32 : Nat) = 1 then 0 else v.val); rw [if_neg (by decide)]
    | ⟨2, _⟩ => by show d.val = (if (128 : Nat) = 1 then 0 else d.val); rw [if_neg (by decide)])).trans ?_
  exact shapeCast_apply _ _ (ix3 (0 : Fin 1) v d) (ix2 v d) (by
    rw [Shape.rowMajor_val_two, Shape.rowMajor_val_three]
    show v.val * 128 + d.val = (0 * 32 + v.val) * 128 + d.val; omega)

end Layout

/-- The index a lane sum at `(r, v)` reads at lane `k`. -/
theorem lane_index (r : Fin 256) (v : Fin 32) (k : Fin 128) :
    reduces_S256x32x128_S256x32.lift (ix2 r v) k = ix3 r v k :=
  funext fun a => Fin.ext (match a with | ⟨0, _⟩ => rfl | ⟨1, _⟩ => rfl | ⟨2, _⟩ => rfl)

/-- A lane sum of the body at `(r, v)` is the sum over the lanes. -/
theorem laneSum_apply (src : FVec Ideal S256x32x128 .f32) (r : Fin 256) (v : Fin 32) :
    multiReduction .add [2] S256x32 src 0x00000000#32 reduces_S256x32x128_S256x32 (.inl rfl) rfl (ix2 r v)
      = ∑ k : Fin 128, src (ix3 r v k) := by
  refine (Ideal.multiReduction_add_single src 0x00000000#32 reduces_S256x32x128_S256x32 (.inl rfl) rfl (ix2 r v)).trans ?_
  exact Finset.sum_congr rfl fun k _ => congrArg src (lane_index r v k)

/-! ## The body's intermediate vectors -/

variable (P0 : Vec Ideal S1x256x32 .f32) (P1 P2 P3 P4 : Vec Ideal S32x128 .f32)

/-- Row `(r, v)` of the block, lifted. -/
abbrev brow (r : Fin 256) (v : Fin 32) : Fin 128 → EReal :=
  lift (P0 (ix3 (0 : Fin 1) r v)) (fun k => P1 (ix2 v k)) (fun k => P2 (ix2 v k))

/-- The lifted rows as the body forms them. -/
def lifted : FVec Ideal S256x32x128 .f32 :=
  addf (mulf (broadcastTo S256x32x128 (shapeCast S256x32x1 (shapeCast S256x32 P0 shapeCasts_S1x256x32_S256x32) shapeCasts_S256x32_S256x32x1) broadcasts_S256x32x1_S256x32x128) (broadcastTo S256x32x128 (shapeCast S1x32x128 P1 shapeCasts_S32x128_S1x32x128) broadcasts_S1x32x128_S256x32x128)) (broadcastTo S256x32x128 (shapeCast S1x32x128 P2 shapeCasts_S32x128_S1x32x128) broadcasts_S1x32x128_S256x32x128)

theorem lifted_apply (r : Fin 256) (v : Fin 32) (d : Fin 128) : lifted P0 P1 P2 (ix3 r v d) = brow P0 P1 P2 r v d := by
  unfold lifted
  rw [addf_apply, mulf_apply, alongLanes_apply, keepUnit_apply, dropUnit_apply, alongRows_apply, alongRows_apply]
  rfl

/-- The rows' sums. -/
def rowSum : FVec Ideal S256x32 .f32 :=
  multiReduction .add [2] S256x32 (lifted P0 P1 P2) 0x00000000#32 reduces_S256x32x128_S256x32 (.inl rfl) rfl

theorem rowSum_apply (r : Fin 256) (v : Fin 32) : rowSum P0 P1 P2 (ix2 r v) = ∑ k : Fin 128, brow P0 P1 P2 r v k := by
  unfold rowSum
  rw [laneSum_apply]
  exact Finset.sum_congr rfl fun k _ => lifted_apply P0 P1 P2 r v k

/-- The centred rows as the body forms them. -/
def centred : FVec Ideal S256x32x128 .f32 :=
  subf (lifted P0 P1 P2) (broadcastTo S256x32x128 (divf (shapeCast S256x32x1 (rowSum P0 P1 P2) shapeCasts_S256x32_S256x32x1) (broadcast S256x32x1 (Scalar.ofBits .f32 0x43000000#32))) broadcasts_S256x32x1_S256x32x128)

theorem centred_apply (r : Fin 256) (v : Fin 32) (d : Fin 128) :
    centred P0 P1 P2 (ix3 r v d) = brow P0 P1 P2 r v d - mean (brow P0 P1 P2 r v) := by
  unfold centred
  rw [subf_apply, lifted_apply, alongLanes_apply, divf_apply, keepUnit_apply, rowSum_apply]
  rfl

/-- The sums of the squared centred rows. -/
def squareSum : FVec Ideal S256x32 .f32 :=
  multiReduction .add [2] S256x32 (mulf (centred P0 P1 P2) (centred P0 P1 P2)) 0x00000000#32 reduces_S256x32x128_S256x32 (.inl rfl) rfl

theorem squareSum_apply (r : Fin 256) (v : Fin 32) :
    squareSum P0 P1 P2 (ix2 r v)
      = ∑ k : Fin 128, (brow P0 P1 P2 r v k - mean (brow P0 P1 P2 r v)) * (brow P0 P1 P2 r v k - mean (brow P0 P1 P2 r v)) := by
  unfold squareSum
  rw [laneSum_apply]
  refine Finset.sum_congr rfl fun k _ => ?_
  rw [mulf_apply, centred_apply]

/-! ## The block -/

/-- What a grid point leaves in the output block, at `(0, r, v, d)`: the normalised, scaled, shifted and clamped row. -/
theorem block_apply (r : Fin 256) (v : Fin 32) (d : Fin 128) :
    Cert.KernelIdeal.Value.E5 (F := Ideal) P0 P1 P2 P3 P4 (ix4 (0 : Fin 1) r v d)
      = normRelu (brow P0 P1 P2 r v) (fun k => P3 (ix2 v k)) (fun k => P4 (ix2 v k)) d := by
  have e0 : Cert.KernelIdeal.Value.ix5_0 (ix4 (0 : Fin 1) r v d) = ix3 (0 : Fin 1) r v :=
    funext fun a => match a with | ⟨0, _⟩ => rfl | ⟨1, _⟩ => rfl | ⟨2, _⟩ => rfl
  have e1 : Cert.KernelIdeal.Value.ix5_1 (ix4 (0 : Fin 1) r v d) = ix2 v d :=
    funext fun a => match a with | ⟨0, _⟩ => rfl | ⟨1, _⟩ => rfl
  have e2 : Cert.KernelIdeal.Value.ix5_2 (ix4 (0 : Fin 1) r v d) = ix2 v d :=
    funext fun a => match a with | ⟨0, _⟩ => rfl | ⟨1, _⟩ => rfl
  have e3 : Cert.KernelIdeal.Value.ix5_3 (ix4 (0 : Fin 1) r v d) = ix2 r v :=
    funext fun a => match a with | ⟨0, _⟩ => rfl | ⟨1, _⟩ => rfl
  have e4 : Cert.KernelIdeal.Value.ix5_4 (ix4 (0 : Fin 1) r v d) = ix2 r v :=
    funext fun a => match a with | ⟨0, _⟩ => rfl | ⟨1, _⟩ => rfl
  have e5 : Cert.KernelIdeal.Value.ix5_5 (ix4 (0 : Fin 1) r v d) = ix2 v d :=
    funext fun a => match a with | ⟨0, _⟩ => rfl | ⟨1, _⟩ => rfl
  have e6 : Cert.KernelIdeal.Value.ix5_6 (ix4 (0 : Fin 1) r v d) = ix2 v d :=
    funext fun a => match a with | ⟨0, _⟩ => rfl | ⟨1, _⟩ => rfl
  show FloatOps.maximumf (FloatOps.addf (FloatOps.mulf (FloatOps.mulf (FloatOps.subf
      (FloatOps.addf (FloatOps.mulf (P0 (Cert.KernelIdeal.Value.ix5_0 (ix4 (0 : Fin 1) r v d))) (P1 (Cert.KernelIdeal.Value.ix5_1 (ix4 (0 : Fin 1) r v d)))) (P2 (Cert.KernelIdeal.Value.ix5_2 (ix4 (0 : Fin 1) r v d))))
      (FloatOps.divf (rowSum P0 P1 P2 (Cert.KernelIdeal.Value.ix5_3 (ix4 (0 : Fin 1) r v d))) (Scalar.ofBits .f32 0x43000000#32)))
      (FloatOps.rsqrt (FloatOps.addf (FloatOps.divf (squareSum P0 P1 P2 (Cert.KernelIdeal.Value.ix5_4 (ix4 (0 : Fin 1) r v d))) (Scalar.ofBits .f32 0x43000000#32)) (Scalar.ofBits .f32 0x3727C5AC#32))))
      (P3 (Cert.KernelIdeal.Value.ix5_5 (ix4 (0 : Fin 1) r v d)))) (P4 (Cert.KernelIdeal.Value.ix5_6 (ix4 (0 : Fin 1) r v d)))) (Scalar.ofBits .f32 0x00000000#32) = _
  rw [e0, e1, e2, e3, e4, e5, e6, rowSum_apply, squareSum_apply]
  rfl

end Cert.RowNorm.Block

end
-- ==== Proof.Array.lean ====
/-
  From blocks to the whole array.

  The grid has 16 × 8 points; point `(p, q)` reads rows `256 q … 256 q + 255` of batch `p` of the scalars and
  the four tables whole, and writes rows `256 q … 256 q + 255` of batch `p` of the result. So what a point
  writes back is its block of `RowNorm.result` of the argument arrays, the 128 blocks tile the result
  array, and the array ends holding `RowNorm.result`.
-/
import proofs.«128797_j9199819948534_1_alg».proof.Proof.Gen.KernelIdeal.Value
import proofs.«128797_j9199819948534_1_alg».proof.Proof.Block
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.RowNorm.Kernel

open Cert.KernelIdeal Cert.KernelIdeal.Gen Cert.RowNorm

variable (m : (ℓ : Loc nD τ sig) → Buf (Elt Ideal) ℓ) (ρ : Dev nD → PrngReg)

/-- The printed index maps over the 128 points: the scalars' block moves with the result's on the first two
    axes, every other block index is zero, and the result's block indices stay inside 16 × 8. -/
theorem idx_facts : ∀ t : Fin cfg0.N,
    win0_0.index t (0 : Fin 3) = win0_5.index t (0 : Fin 4)
    ∧ win0_0.index t (1 : Fin 3) = win0_5.index t (1 : Fin 4)
    ∧ win0_0.index t (2 : Fin 3) = 0
    ∧ win0_5.index t (2 : Fin 4) = 0 ∧ win0_5.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 4) ≤ 15 ∧ win0_5.index t (1 : Fin 4) ≤ 7 :=
  (by decide +kernel : ∀ t : Fin grid0.N, _)

/-- Every block of the result is some point's. -/
theorem idx_onto : ∀ (p : Fin 16) (q : Fin 8), ∃ t : Fin cfg0.N, win0_5.index t = ![p.val, q.val, 0, 0] :=
  (by decide +kernel : ∀ (p : Fin 16) (q : Fin 8), ∃ t : Fin grid0.N, win0_5.index t = ![p.val, q.val, 0, 0])

/-- The scalars' block at a point, read at `(0, r, v)`, is the argument at the block's batch and row `256 q + r`. -/
theorem xblk_apply (c : Dev nD) (t : Fin cfg0.N) (r : Fin 256) (v : Fin 32) (b : Fin 16) (s : Fin 2048)
    (hb : b.val = win0_5.index t (0 : Fin 4)) (hs : s.val = win0_5.index t (1 : Fin 4) * 256 + r.val) :
    (iblk m c 0 t : Vec Ideal S1x256x32 .f32) (ix3 (0 : Fin 1) r v)
      = (V m c main_arg0 : S16x2048x32.Idx → EReal) (ix3 b s v) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = b.val; omega
  | ⟨1, _⟩ => show win0_0.index t (1 : Fin 3) * 256 + 1 * r.val = s.val; omega
  | ⟨2, _⟩ => show win0_0.index t (2 : Fin 3) * 32 + 1 * v.val = v.val; omega

/-- Table 1's block at a point is the whole table. -/
theorem tblk1_apply (c : Dev nD) (t : Fin cfg0.N) (v : Fin 32) (k : Fin 128) :
    (iblk m c 1 t : Vec Ideal S32x128 .f32) (ix2 v k) = (V m c main_arg1 : S32x128.Idx → EReal) (ix2 v k) := by
  obtain ⟨-, -, -, -, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 32 + 1 * v.val = v.val; omega
  | ⟨1, _⟩ => show win0_1.index t (1 : Fin 2) * 128 + 1 * k.val = k.val; omega

/-- Table 2's block at a point is the whole table. -/
theorem tblk2_apply (c : Dev nD) (t : Fin cfg0.N) (v : Fin 32) (k : Fin 128) :
    (iblk m c 2 t : Vec Ideal S32x128 .f32) (ix2 v k) = (V m c main_arg2 : S32x128.Idx → EReal) (ix2 v k) := by
  obtain ⟨-, -, -, -, -, -, -, e0, e1, -⟩ := idx_facts t
  unfold iblk
  rw [View.read_apply]
  show V m c main_arg2 _ = V m c main_arg2 _
  congr 1
  funext a
  apply Fin.ext
  match a with
  | ⟨0, _⟩ => show win0_2.index t (0 : Fin 2) * 32 + 1 * v.val = v.val; omega
  | ⟨1, _⟩ => show win0_2.index t (1 : Fin 2) * 128 + 1 * k.val = k.val; omega

/-- Table 3's block at a point is the whole table. -/
theorem tblk3_apply (c : Dev nD) (t : Fin cfg0.N) (v : Fin 32) (k : Fin 128) :
    (iblk m c 3 t : Vec Ideal S32x128 .f32) (ix2 v k) = (V m c main_arg3 : S32x128.Idx → EReal) (ix2 v k) := by
  obtain ⟨-, -, -, -, -, -, -, -, -, e0, e1, -⟩ := idx_facts t
  unfold iblk
  rw [View.read_apply]
  show V m c main_arg3 _ = V m c main_arg3 _
  congr 1
  funext a
  apply Fin.ext
  match a with
  | ⟨0, _⟩ => show win0_3.index t (0 : Fin 2) * 32 + 1 * v.val = v.val; omega
  | ⟨1, _⟩ => show win0_3.index t (1 : Fin 2) * 128 + 1 * k.val = k.val; omega

/-- Table 4's block at a point is the whole table. -/
theorem tblk4_apply (c : Dev nD) (t : Fin cfg0.N) (v : Fin 32) (k : Fin 128) :
    (iblk m c 4 t : Vec Ideal S32x128 .f32) (ix2 v k) = (V m c main_arg4 : S32x128.Idx → EReal) (ix2 v k) := by
  obtain ⟨-, -, -, -, -, -, -, -, -, -, -, e0, e1, -⟩ := idx_facts t
  unfold iblk
  rw [View.read_apply]
  show V m c main_arg4 _ = V m c main_arg4 _
  congr 1
  funext a
  apply Fin.ext
  match a with
  | ⟨0, _⟩ => show win0_4.index t (0 : Fin 2) * 32 + 1 * v.val = v.val; omega
  | ⟨1, _⟩ => show win0_4.index t (1 : Fin 2) * 128 + 1 * k.val = k.val; omega

/-- The array index under block index `(0, r, v, d)` of the result's block at a point. -/
theorem emb_apply (t : Fin cfg0.N) (r : Fin 256) (v : Fin 32) (d : Fin 128) (b : Fin 16) (s : Fin 2048)
    (hb : b.val = win0_5.index t (0 : Fin 4)) (hs : s.val = win0_5.index t (1 : Fin 4) * 256 + r.val) :
    ((cfg0.win 5).blk t).view.emb (ix4 (0 : Fin 1) r v d) = ix4 b s v d := by
  obtain ⟨-, -, -, e2, e3, -⟩ := idx_facts t
  funext a
  apply Fin.ext
  match a with
  | ⟨0, _⟩ => show win0_5.index t (0 : Fin 4) * 1 + 1 * 0 = b.val; omega
  | ⟨1, _⟩ => show win0_5.index t (1 : Fin 4) * 256 + 1 * r.val = s.val; omega
  | ⟨2, _⟩ => show win0_5.index t (2 : Fin 4) * 32 + 1 * v.val = v.val; omega
  | ⟨3, _⟩ => show win0_5.index t (3 : Fin 4) * 128 + 1 * d.val = d.val; omega

theorem zero3 : (![0, 0, 0] : Fin 3 → Nat) = fun _ => 0 := funext fun a => by fin_cases a <;> rfl
theorem zero2 : (![0, 0] : Fin 2 → Nat) = fun _ => 0 := funext fun a => by fin_cases a <;> rfl

/-- Block values that agree with the argument arrays where the block sits give the same normalised row:
    `RowNorm.result` at `(b, s, v, d)` only reads `x[b, s, v]` and row `v` of each table. -/
theorem rows_eq (P0 : Vec Ideal S1x256x32 .f32) (P1 P2 P3 P4 : Vec Ideal S32x128 .f32)
    (x : S16x2048x32.Idx → EReal) (W B gam bet : S32x128.Idx → EReal)
    (r : Fin 256) (v : Fin 32) (d : Fin 128) (b : Fin 16) (s : Fin 2048)
    (h0 : P0 (ix3 (0 : Fin 1) r v) = x (ix3 b s v))
    (h1 : ∀ k : Fin 128, P1 (ix2 v k) = W (ix2 v k)) (h2 : ∀ k : Fin 128, P2 (ix2 v k) = B (ix2 v k))
    (h3 : ∀ k : Fin 128, P3 (ix2 v k) = gam (ix2 v k)) (h4 : ∀ k : Fin 128, P4 (ix2 v k) = bet (ix2 v k)) :
    normRelu (Block.brow P0 P1 P2 r v) (fun k => P3 (ix2 v k)) (fun k => P4 (ix2 v k)) d
      = result x W B gam bet (ix4 b s v d) := by
  show normRelu (lift (P0 (ix3 (0 : Fin 1) r v)) (fun k => P1 (ix2 v k)) (fun k => P2 (ix2 v k)))
      (fun k => P3 (ix2 v k)) (fun k => P4 (ix2 v k)) d
    = normRelu (lift (x (ix3 b s v)) (fun k => W (ix2 v k)) (fun k => B (ix2 v k)))
      (fun k => gam (ix2 v k)) (fun k => bet (ix2 v k)) d
  rw [h0, funext h1, funext h2, funext h3, funext h4]

/-- The function of the argument arrays, as the region finds them, that the result array ends holding. -/
abbrev target (c : Dev nD) : S16x2048x32x128.Idx → EReal :=
  result (V m c main_arg0) (V m c main_arg1) (V m c main_arg2) (V m c main_arg3) (V m c main_arg4)

/-- What a point leaves in the result's staging buffer is, element by element, `target` at the array index under
    the block index: the block's rows are the lifted rows of the point's scalars. -/
theorem point_eq (c : Dev nD) (t : Fin cfg0.N) (y : S1x256x32x128.Idx) :
    out0_5 (iblk m c 0 t) (iblk m c 1 t) (iblk m c 2 t) (iblk m c 3 t) (iblk m c 4 t) y
      = target m c (((cfg0.win 5).blk t).view.emb y) := by
  obtain ⟨-, -, -, -, -, -, -, -, -, -, -, -, -, l0, l1⟩ := idx_facts t
  obtain ⟨q, r, v, d, rfl⟩ : ∃ (q : Fin 1) (r : Fin 256) (v : Fin 32) (d : Fin 128), y = ix4 q r v d :=
    ⟨y 0, y 1, y 2, y 3, eq_ix4 y⟩
  obtain rfl : q = 0 := Subsingleton.elim _ _
  have hr : r.val < 256 := r.isLt
  rw [emb_apply t r v d ⟨win0_5.index t (0 : Fin 4), by omega⟩ ⟨win0_5.index t (1 : Fin 4) * 256 + r.val, by omega⟩ rfl rfl]
  unfold out0_5
  simp only [View.ld_unit_zero (S := S1x256x32) zero3, View.ld_unit_zero (S := S32x128) zero2]
  refine (Cert.KernelIdeal.Value.canon5_eq _ _ _ _ _ _).trans ?_
  refine (Block.block_apply _ _ _ _ _ r v d).trans ?_
  exact rows_eq _ _ _ _ _ _ _ _ _ _ r v d _ _
    (xblk_apply m c t r v ⟨win0_5.index t (0 : Fin 4), by omega⟩ ⟨win0_5.index t (1 : Fin 4) * 256 + r.val, by omega⟩ rfl rfl)
    (tblk1_apply m c t v) (tblk2_apply m c t v) (tblk3_apply m c t v) (tblk4_apply m c t v)

/-- What point `t` writes back is block `t` of `target`. -/
theorem flushed_eq (c : Dev nD) (t : Fin cfg0.N) :
    (dats m 0 c).flushed 5 t = ((cfg0.win 5).blk t).view.read (Elt Ideal) (target m c) := by
  rw [Cert.KernelIdeal.Value.flushed5]
  funext y
  exact point_eq m c t y

/-- An index of the result array is in point `t`'s block iff each coordinate is in the block's range on its axis. -/
theorem mem_blk (t : Fin cfg0.N) (i : S16x2048x32x128.Idx) :
    i ∈ ((cfg0.win 5).blk t).view.set ↔ ∀ a : Fin 4, win0_5.index t a * S1x256x32x128.size a ≤ (i a).val
      ∧ (i a).val < win0_5.index t a * S1x256x32x128.size a + S1x256x32x128.size a := by
  show i ∈ ((View.whole main_v0).slice (win0_5.rect t)).set ↔ _
  rw [View.set_slice_whole, Rect.mem_set_unit]
  exact Iff.rfl

/-- The 128 blocks tile the result array: index `(b, s, v, d)` is in the block of the point with block indices
    `(b, s / 256)`. -/
theorem covered (i : S16x2048x32x128.Idx) :
    ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 32 := (i 2).isLt
  have hi3 : (i 3).val < 128 := (i 3).isLt
  obtain ⟨t, ht⟩ := idx_onto ⟨(i 0).val, hi0⟩ ⟨(i 1).val / 256, by omega⟩
  have q0 : win0_5.index t (0 : Fin 4) = (i 0).val := congrFun ht 0
  have q1 : win0_5.index t (1 : Fin 4) = (i 1).val / 256 := congrFun ht 1
  have q2 : win0_5.index t (2 : Fin 4) = 0 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 256 ≤ (i 1).val ∧ (i 1).val < win0_5.index t (1 : Fin 4) * 256 + 256; omega
  | ⟨2, _⟩ => show win0_5.index t (2 : Fin 4) * 32 ≤ (i 2).val ∧ (i 2).val < win0_5.index t (2 : Fin 4) * 32 + 32; omega
  | ⟨3, _⟩ => show win0_5.index t (3 : Fin 4) * 128 ≤ (i 3).val ∧ (i 3).val < win0_5.index t (3 : Fin 4) * 128 + 128; omega

/-- The result array after the run is `RowNorm.result` of the argument arrays. -/
theorem final (c : Dev nD) : (dats m 0 c).arrAt 5 cfg0.N = target m c :=
  (dats m 0 c).arrAt_eq_of_cover 5 (target m c) (fun t _ => flushed_eq m c t) covered

/-- The kernel's run, read: the result array at `RowNorm.result` of the arguments, the arguments unchanged. -/
theorem run : θ_run defs (onTc (τ := τ) (main (F := Ideal))) ⟨m, fun _ => 0, ρ⟩ fun r => ∀ c : Dev nD,
      r.2.mem ((c : Thread nD τ).loc main_v0) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.RowNorm.Kernel

end
-- ==== Proof.lean ====
/-
  The certificate of the per-variable embedding kernel against its jnp reference.

  Both programs take scalars `x[b, s, v]` (16 × 2048 × 32) and four tables `W, B, γ, β` (32 × 128) and return,
  for every `(b, s, v)`, the row `d ↦ x[b, s, v] · W[v, d] + B[v, d]` normalised by its own mean and variance over
  the 128 features, scaled by `γ[v, ·]`, shifted by `β[v, ·]` and clamped below at zero (`RowNorm.result`,
  Proof/Spec.lean). The kernel does it on a 16 × 8 grid, one [1, 256, 32, 128] block of the result per point, with
  the tables resident; the reference does it with whole-array host operations. Read at the ideal instance the two
  carry out the same operations in the same order on the same float words, so no algebraic law and no use of the
  inputs' finiteness is needed: a lane sum in the kernel and a host sum from the zero word in the reference are one
  sum of the row, and the kernel's and the host's quotient and reciprocal square root are the extended reals' own.

  Proof/Reference.lean reads the reference's run at an index; Proof/Block.lean reads one block of the kernel;
  Proof/Array.lean assembles the 128 blocks into the result array. The frames of the two kernel programs are the
  generated ones; the reference's frame is its run with the result dropped; the idealization rewrote nothing.
-/
import proofs.«128797_j9199819948534_1_alg».proof.Defs
import proofs.«128797_j9199819948534_1_alg».proof.Proof.Gen.Kernel
import proofs.«128797_j9199819948534_1_alg».proof.Proof.Gen.Kernel.Skeleton
import proofs.«128797_j9199819948534_1_alg».proof.Proof.Gen.Kernel.Launch
import proofs.«128797_j9199819948534_1_alg».proof.Proof.Gen.Kernel.Points
import proofs.«128797_j9199819948534_1_alg».proof.Proof.Gen.Kernel.Frame
import proofs.«128797_j9199819948534_1_alg».proof.Proof.Gen.KernelIdeal
import proofs.«128797_j9199819948534_1_alg».proof.Proof.Gen.KernelIdeal.Skeleton
import proofs.«128797_j9199819948534_1_alg».proof.Proof.Gen.KernelIdeal.Launch
import proofs.«128797_j9199819948534_1_alg».proof.Proof.Gen.KernelIdeal.Points
import proofs.«128797_j9199819948534_1_alg».proof.Proof.Gen.KernelIdeal.Frame
import proofs.«128797_j9199819948534_1_alg».proof.Proof.Gen.ReferenceIdeal
import proofs.«128797_j9199819948534_1_alg».proof.Proof.Gen.Pre_finite_inputs
import proofs.«128797_j9199819948534_1_alg».proof.Proof.Gen.KernelIdeal.Value
import proofs.«128797_j9199819948534_1_alg».proof.Proof.Gen.ReferenceIdeal.Run
import proofs.«128797_j9199819948534_1_alg».proof.Proof.Gen.ReferenceIdeal.Read
import proofs.«128797_j9199819948534_1_alg».proof.Proof.Reference
import proofs.«128797_j9199819948534_1_alg».proof.Proof.Array
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories that agree on the five arguments, the kernel's result array and the reference's both end at
    `RowNorm.result` of those arguments. -/
theorem algebraic : Cert.algebraic_KernelIdeal_ReferenceIdeal := by
  intro m ρ m' ρ' _ hagree
  refine ⟨fun c => Cert.RowNorm.Kernel.target m c, Cert.RowNorm.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.RowNorm.Reference.value_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
